-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S2x600000 32) (main_arg2 : IVec S4096x1 32) (main_arg3 : IVec S4096x100 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S100000x1 : Shape := ⟨2, ![100000, 1]⟩
abbrev S4096 : Shape := ⟨1, ![4096]⟩
abbrev S4096x128 : Shape := ⟨2, ![4096, 128]⟩
abbrev S4096x100x1 : Shape := ⟨3, ![4096, 100, 1]⟩
abbrev S4096x100x128 : Shape := ⟨3, ![4096, 100, 128]⟩
abbrev S128x128 : Shape := ⟨2, ![128, 128]⟩
abbrev S128x100x128 : Shape := ⟨3, ![128, 100, 128]⟩
abbrev S128x100 : Shape := ⟨2, ![128, 100]⟩
abbrev S128x1x128 : Shape := ⟨3, ![128, 1, 128]⟩

abbrev nBuf : Space → Nat
  | .hbm => 115
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S4096x1, .i32⟩
  | .hbm, ⟨3, _⟩ => ⟨S4096x100, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S700000, .i32⟩
  | .hbm, ⟨22, _⟩ => ⟨S700000, .i1⟩
  | .hbm, ⟨23, _⟩ => ⟨S_, .i32⟩
  | .hbm, ⟨24, _⟩ => ⟨S700000, .i32⟩
  | .hbm, ⟨25, _⟩ => ⟨S700000, .i32⟩
  | .hbm, ⟨26, _⟩ => ⟨S700000, .i32⟩
  | .hbm, ⟨27, _⟩ => ⟨S700000x1, .i32⟩
  | .hbm, ⟨28, _⟩ => ⟨S700000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S700000x1, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000x128, .f32⟩
  | .hbm, ⟨49, _⟩ => ⟨S700000x128, .f32⟩
  | .hbm, ⟨50, _⟩ => ⟨S700000x128, .f32⟩
  | .hbm, ⟨51, _⟩ => ⟨S_, .f32⟩
  | .hbm, ⟨52, _⟩ => ⟨S100000x128, .f32⟩
  | .hbm, ⟨53, _⟩ => ⟨S700000x1, .i32⟩
  | .hbm, ⟨54, _⟩ => ⟨S100000x128, .f32⟩
  | .hbm, ⟨55, _⟩ => ⟨S_, .f32⟩
  | .hbm, ⟨56, _⟩ => ⟨S700000, .f32⟩
  | .hbm, ⟨57, _⟩ => ⟨S_, .f32⟩
  | .hbm, ⟨58, _⟩ => ⟨S100000, .f32⟩
  | .hbm, ⟨59, _⟩ => ⟨S700000x1, .i32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S700000x1, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x128, .f32⟩
  | .hbm, ⟨75, _⟩ => ⟨S700000x128, .f32⟩
  | .hbm, ⟨76, _⟩ => ⟨S700000x128, .f32⟩
  | .hbm, ⟨77, _⟩ => ⟨S_, .f32⟩
  | .hbm, ⟨78, _⟩ => ⟨S100000x128, .f32⟩
  | .hbm, ⟨79, _⟩ => ⟨S700000x1, .i32⟩
  | .hbm, ⟨80, _⟩ => ⟨S100000x128, .f32⟩
  | .hbm, ⟨81, _⟩ => ⟨S_, .f32⟩
  | .hbm, ⟨82, _⟩ => ⟨S700000, .f32⟩
  | .hbm, ⟨83, _⟩ => ⟨S_, .f32⟩
  | .hbm, ⟨84, _⟩ => ⟨S100000, .f32⟩
  | .hbm, ⟨85, _⟩ => ⟨S700000x1, .i32⟩
  | .hbm, ⟨86, _⟩ => ⟨S100000, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .bf16⟩
  | .hbm, ⟨95, _⟩ => ⟨S4096, .i32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S4096x1, .i32⟩
  | .hbm, ⟨104, _⟩ => ⟨S4096x128, .bf16⟩
  | .hbm, ⟨105, _⟩ => ⟨S_, .i32⟩
  | .hbm, ⟨106, _⟩ => ⟨S4096x100, .i32⟩
  | .hbm, ⟨107, _⟩ => ⟨S4096x100, .i1⟩
  | .hbm, ⟨108, _⟩ => ⟨S_, .i32⟩
  | .hbm, ⟨109, _⟩ => ⟨S4096x100, .i32⟩
  | .hbm, ⟨110, _⟩ => ⟨S4096x100, .i32⟩
  | .hbm, ⟨111, _⟩ => ⟨S4096x100, .i32⟩
  | .hbm, ⟨112, _⟩ => ⟨S4096x100x1, .i32⟩
  | .hbm, ⟨113, _⟩ => ⟨S4096x100x128, .bf16⟩
  | .hbm, ⟨114, _⟩ => ⟨S4096x100, .f32⟩
  | .local _ .vmem, ⟨0, _⟩ => ⟨S128x128, .bf16⟩
  | .local _ .vmem, ⟨1, _⟩ => ⟨S128x128, .bf16⟩
  | .local _ .vmem, ⟨2, _⟩ => ⟨S128x100x128, .bf16⟩
  | .local _ .vmem, ⟨3, _⟩ => ⟨S128x100x128, .bf16⟩
  | .local _ .vmem, ⟨4, _⟩ => ⟨S128x100, .f32⟩
  | .local _ .vmem, ⟨5, _⟩ => ⟨S128x100, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_c_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_18 : Ref sig .tc := ⟨.hbm, 105, rfl⟩
abbrev main_v81 : Ref sig .tc := ⟨.hbm, 106, rfl⟩
abbrev main_v82 : Ref sig .tc := ⟨.hbm, 107, rfl⟩
abbrev main_c_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x100x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x100x128_S128x100x128_0_0_0 : ∀ a, (![0, 0, 0] : Fin 3 → Nat) a + S128x100x128.size a ≤ S128x100x128.size a
  h_S128x100x128 : 0 < S128x100x128.numel
  shapeCasts_S128x100x128_S128x100x128 : S128x100x128.ShapeCasts S128x100x128
  shapeCasts_S128x128_S128x1x128 : S128x128.ShapeCasts S128x1x128
  shapeCasts_S128x1x128_S128x1x128 : S128x1x128.ShapeCasts S128x1x128
  broadcasts_S128x1x128_S128x100x128 : S128x1x128.Broadcasts S128x100x128
  reduces_S128x100x128_S128x100 : S128x100x128.Reduces [2] S128x100
  inb_S128x100_S128x100_0_0 : ∀ a, (![0, 0] : Fin 2 → Nat) a + S128x100.size a ≤ S128x100.size a
  h_S128x100 : 0 < S128x100.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S4096x1_S4096x128_1_0_n_n_0_1_1128_wf : GatherDims.WF S100000x128 S4096x1 S4096x128 [1] [0] [] [0] [] 1 ![1, 128]
  gather_S100000x128_S4096x100x1_S4096x100x128_2_0_n_n_0_2_1128_wf : GatherDims.WF S100000x128 S4096x100x1 S4096x100x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .bf16 = 32 ∨ (Rect.block (s := S4096x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x100x128.size a ≤ S4096x100x128.size a
  hwx0_1 : ∀ i : grid0.Coords, EltTy.bits .bf16 = 32 ∨ (Rect.block (s := S4096x100x128) S128x100x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S4096x100.size a
  hwx0_2 : ∀ i : grid0.Coords, EltTy.bits .f32 = 32 ∨ (Rect.block (s := S4096x100) S128x100.size (cc0_transform_2 i) (hinb0_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S4096x100x1_S4096x100x128_2_0_n_n_0_2_1128 : GatherDims S100000x128 S4096x100x1 S4096x100x128 where
  offsetDims := [2]
  collapsedSliceDims := [0]
  operandBatchingDims := []
  startIndicesBatchingDims := []
  startIndexMap := [0]
  indexVectorDim := 2
  sliceSizes := ![1, 128]
  wf := gather_S100000x128_S4096x100x1_S4096x100x128_2_0_n_n_0_2_1128_wf

abbrev win0_0 : Pipeline.Window sig grid0 :=
  Pipeline.Window.ofSpec (Memref.whole main_v80) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S128x100x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S128x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S4096x1 : Shape := ⟨2, ![4096, 1]⟩
abbrev S4096x100 : Shape := ⟨2, ![4096, 100]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S100000x1 : Shape := ⟨2, ![100000, 1]⟩
abbrev S4096x1x1 : Shape := ⟨3, ![4096, 1, 1]⟩
abbrev S4096x1x128 : Shape := ⟨3, ![4096, 1, 128]⟩
abbrev S4096x100x1 : Shape := ⟨3, ![4096, 100, 1]⟩
abbrev S4096x100x128 : Shape := ⟨3, ![4096, 100, 128]⟩
abbrev S4096x1x100 : Shape := ⟨3, ![4096, 1, 100]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S4096x1, .i32⟩
  | .hbm, ⟨3, _⟩ => ⟨S4096x100, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S700000, .i32⟩
  | .hbm, ⟨22, _⟩ => ⟨S700000, .i1⟩
  | .hbm, ⟨23, _⟩ => ⟨S_, .i32⟩
  | .hbm, ⟨24, _⟩ => ⟨S700000, .i32⟩
  | .hbm, ⟨25, _⟩ => ⟨S700000, .i32⟩
  | .hbm, ⟨26, _⟩ => ⟨S700000, .i32⟩
  | .hbm, ⟨27, _⟩ => ⟨S700000x1, .i32⟩
  | .hbm, ⟨28, _⟩ => ⟨S700000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S700000x1, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000x128, .f32⟩
  | .hbm, ⟨49, _⟩ => ⟨S700000x128, .f32⟩
  | .hbm, ⟨50, _⟩ => ⟨S700000x128, .f32⟩
  | .hbm, ⟨51, _⟩ => ⟨S_, .f32⟩
  | .hbm, ⟨52, _⟩ => ⟨S100000x128, .f32⟩
  | .hbm, ⟨53, _⟩ => ⟨S700000x1, .i32⟩
  | .hbm, ⟨54, _⟩ => ⟨S100000x128, .f32⟩
  | .hbm, ⟨55, _⟩ => ⟨S_, .f32⟩
  | .hbm, ⟨56, _⟩ => ⟨S700000, .f32⟩
  | .hbm, ⟨57, _⟩ => ⟨S_, .f32⟩
  | .hbm, ⟨58, _⟩ => ⟨S100000, .f32⟩
  | .hbm, ⟨59, _⟩ => ⟨S700000x1, .i32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S700000x1, .f32⟩
  | .hbm, ⟨66, _⟩ => ⟨S_, .i32⟩
  | .hbm, ⟨67, _⟩ => ⟨S700000, .i32⟩
  | .hbm, ⟨68, _⟩ => ⟨S700000, .i1⟩
  | .hbm, ⟨69, _⟩ => ⟨S_, .i32⟩
  | .hbm, ⟨70, _⟩ => ⟨S700000, .i32⟩
  | .hbm, ⟨71, _⟩ => ⟨S700000, .i32⟩
  | .hbm, ⟨72, _⟩ => ⟨S700000, .i32⟩
  | .hbm, ⟨73, _⟩ => ⟨S700000x1, .i32⟩
  | .hbm, ⟨74, _⟩ => ⟨S700000x128, .f32⟩
  | .hbm, ⟨75, _⟩ => ⟨S700000x128, .f32⟩
  | .hbm, ⟨76, _⟩ => ⟨S700000x128, .f32⟩
  | .hbm, ⟨77, _⟩ => ⟨S_, .f32⟩
  | .hbm, ⟨78, _⟩ => ⟨S100000x128, .f32⟩
  | .hbm, ⟨79, _⟩ => ⟨S700000x1, .i32⟩
  | .hbm, ⟨80, _⟩ => ⟨S100000x128, .f32⟩
  | .hbm, ⟨81, _⟩ => ⟨S_, .f32⟩
  | .hbm, ⟨82, _⟩ => ⟨S700000, .f32⟩
  | .hbm, ⟨83, _⟩ => ⟨S_, .f32⟩
  | .hbm, ⟨84, _⟩ => ⟨S100000, .f32⟩
  | .hbm, ⟨85, _⟩ => ⟨S700000x1, .i32⟩
  | .hbm, ⟨86, _⟩ => ⟨S100000, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S4096x1, .i32⟩
  | .hbm, ⟨96, _⟩ => ⟨S4096x1, .i1⟩
  | .hbm, ⟨97, _⟩ => ⟨S_, .i32⟩
  | .hbm, ⟨98, _⟩ => ⟨S4096x1, .i32⟩
  | .hbm, ⟨99, _⟩ => ⟨S4096x1, .i32⟩
  | .hbm, ⟨100, _⟩ => ⟨S4096x1, .i32⟩
  | .hbm, ⟨101, _⟩ => ⟨S4096x1x1, .i32⟩
  | .hbm, ⟨102, _⟩ => ⟨S4096x1x128, .f32⟩
  | .hbm, ⟨103, _⟩ => ⟨S_, .i32⟩
  | .hbm, ⟨104, _⟩ => ⟨S4096x100, .i32⟩
  | .hbm, ⟨105, _⟩ => ⟨S4096x100, .i1⟩
  | .hbm, ⟨106, _⟩ => ⟨S_, .i32⟩
  | .hbm, ⟨107, _⟩ => ⟨S4096x100, .i32⟩
  | .hbm, ⟨108, _⟩ => ⟨S4096x100, .i32⟩
  | .hbm, ⟨109, _⟩ => ⟨S4096x100, .i32⟩
  | .hbm, ⟨110, _⟩ => ⟨S4096x100x1, .i32⟩
  | .hbm, ⟨111, _⟩ => ⟨S4096x100x128, .f32⟩
  | .hbm, ⟨112, _⟩ => ⟨S4096x1x100, .f32⟩
  | .hbm, ⟨113, _⟩ => ⟨S4096x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_c_16 : Ref sig .tc := ⟨.hbm, 94, rfl⟩
abbrev main_v72 : Ref sig .tc := ⟨.hbm, 95, rfl⟩
abbrev main_v73 : Ref sig .tc := ⟨.hbm, 96, rfl⟩
abbrev main_c_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_18 : Ref sig .tc := ⟨.hbm, 103, rfl⟩
abbrev main_v79 : Ref sig .tc := ⟨.hbm, 104, rfl⟩
abbrev main_v80 : Ref sig .tc := ⟨.hbm, 105, rfl⟩
abbrev main_c_19 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  shapeCasts_S4096x1x100_S4096x100 : S4096x1x100.ShapeCasts S4096x100
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S4096x1x1_S4096x1x128_2_0_n_n_0_2_1128_wf : GatherDims.WF S100000x128 S4096x1x1 S4096x1x128 [2] [0] [] [0] [] 2 ![1, 128]
  gather_S100000x128_S4096x100x1_S4096x100x128_2_0_n_n_0_2_1128_wf : GatherDims.WF S100000x128 S4096x100x1 S4096x100x128 [2] [0] [] [0] [] 2 ![1, 128]
  dot_S4096x1x128_S4096x100x128_S4096x1x100_2_2_1_1_0_0_wf : DotDims.WF S4096x1x128 S4096x100x128 S4096x1x100 [2] [2] [1] [1] [0] [0]

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S4096x1x1_S4096x1x128_2_0_n_n_0_2_1128 : GatherDims S100000x128 S4096x1x1 S4096x1x128 where
  offsetDims := [2]
  collapsedSliceDims := [0]
  operandBatchingDims := []
  startIndicesBatchingDims := []
  startIndexMap := [0]
  indexVectorDim := 2
  sliceSizes := ![1, 128]
  wf := gather_S100000x128_S4096x1x1_S4096x1x128_2_0_n_n_0_2_1128_wf
def gather_S100000x128_S4096x100x1_S4096x100x128_2_0_n_n_0_2_1128 : GatherDims S100000x128 S4096x100x1 S4096x100x128 where
  offsetDims := [2]
  collapsedSliceDims := [0]
  operandBatchingDims := []
  startIndicesBatchingDims := []
  startIndexMap := [0]
  indexVectorDim := 2
  sliceSizes := ![1, 128]
  wf := gather_S100000x128_S4096x100x1_S4096x100x128_2_0_n_n_0_2_1128_wf
def dot_S4096x1x128_S4096x100x128_S4096x1x100_2_2_1_1_0_0 : DotDims S4096x1x128 S4096x100x128 S4096x1x100 where
  lhsContracting := [2]
  rhsContracting := [2]
  lhsNonContracting := [1]
  rhsNonContracting := [1]
  lhsBatch := [0]
  rhsBatch := [0]
  wf := dot_S4096x1x128_S4096x100x128_S4096x1x100_2_2_1_1_0_0_wf

class Facts : Prop extends Facts₀ where

variable [Facts]
-- ==== Proof.BlockScore.lean ====
/-
  One grid point of the scoring kernel, read at the ideal values.

  The body loads a block of 128 item rows `x0 : [128, 128]` and the matching block of sample rows
  `x1 : [128, 100, 128]`, lays each item row beside its hundred sample rows (a unit axis inserted, then
  broadcast along it), multiplies entry by entry and sums the last axis. Widening bf16 to f32 is the
  identity on extended reals, so entry `(p, q)` of what the body stores is the inner product
  `∑ k, x0 (p, k) * x1 (p, q, k)` of item row `p` with sample row `(p, q)`.
-/
import proofs.«166263_j1735166787760_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Score

open Cert.KernelIdeal Cert.KernelIdeal.Gen

/-- Inserting coordinate `k` on the summed (last) axis of the reduced index `(p, q)` gives `(p, q, k)`. -/
theorem lift_last (p : Fin 128) (q : Fin 100) (k : Fin 128) :
    (reduces_S128x100x128_S128x100).lift (ix2 p q) k = ix3 p q k := by
  funext c
  apply Fin.ext
  match c with
  | ⟨0, _⟩ => rfl
  | ⟨1, _⟩ => rfl
  | ⟨2, _⟩ => rfl

/-- An item row laid beside its sample rows: the block `[128, 128]` seen as `[128, 1, 128]` and repeated
    along the new axis reads, at `(p, q, k)`, the item block at `(p, k)`. -/
theorem item_beside (x0 : Vec Ideal S128x128 .bf16) (p : Fin 128) (q : Fin 100) (k : Fin 128) :
    broadcastTo S128x100x128
      (shapeCast S128x1x128 (shapeCast S128x1x128 (shapeCast S128x128 x0 shapeCasts_S128x128_S128x128)
        shapeCasts_S128x128_S128x1x128) shapeCasts_S128x1x128_S128x1x128)
      broadcasts_S128x1x128_S128x100x128 (ix3 p q k) = x0 (ix2 p k) := by
  rw [shapeCast_self, shapeCast_self]
  refine (broadcastTo_apply _ broadcasts_S128x1x128_S128x100x128 (ix3 p q k) (ix3 p (0 : Fin 1) k) (fun a => ?_)).trans ?_
  · match a with
    | ⟨0, _⟩ => rfl
    | ⟨1, _⟩ => rfl
    | ⟨2, _⟩ => rfl
  · refine shapeCast_apply x0 shapeCasts_S128x128_S128x1x128 (ix3 p (0 : Fin 1) k) (ix2 p k) ?_
    rw [Shape.rowMajor_val_two, Shape.rowMajor_val_three]
    show p.val * 128 + k.val = (p.val * 1 + 0) * 128 + k.val
    omega

/-- THE BODY'S VALUE AT AN ENTRY: what a grid point stores at `(p, q)` is the inner product of item row `p`
    of its item block with sample row `(p, q)` of its sample block. -/
theorem pay_apply (x0 : Vec Ideal S128x128 .bf16) (x1 : Vec Ideal S128x100x128 .bf16) (p : Fin 128) (q : Fin 100) :
    k0_pay1 (F := Ideal) x0 x1 (ix2 p q) = ∑ k : Fin 128, x0 (ix2 p k) * x1 (ix3 p q k) := by
  unfold k0_pay1
  refine (Ideal.multiReduction_add_single _ 0x00000000#32 reduces_S128x100x128_S128x100 (.inl rfl) rfl (ix2 p q)).trans ?_
  refine Finset.sum_congr (s₁ := (Finset.univ : Finset (Fin 128))) rfl fun k _ => ?_
  rw [show reduces_S128x100x128_S128x100.lift (ix2 p q) k = ix3 p q k from lift_last p q k]
  rw [mulf_apply, extf_apply, extf_apply, item_beside, shapeCast_self]

end Cert.KernelIdeal.Score

end
-- ==== Proof.ScoreSpec.lean ====
/-
  The scores, as one function of two arrays.

  For an array `X` of 4096 item rows (128 entries each) and an array `Y` of 4096 × 100 sample rows, the
  score of batch row `b` against its sample `s` is the inner product `∑ k, X (b, k) * Y (b, s, k)` over the
  extended reals. Addition and multiplication of extended reals are commutative and associative, so
  the sum needs no order and no finiteness assumption.
-/
import Idealize.ShloMosaic.Lib.ValueIdx
import Idealize.ShloMosaic.PureOps.Ideal

noncomputable section

open Idealize.ShloMosaic Idealize.ShloMosaic.ValueIdx

namespace Cert.Score

/-- The item rows' shape, the sample rows' shape and the scores' shape. -/
abbrev Sx : Shape := ⟨2, ![4096, 128]⟩
abbrev Sy : Shape := ⟨3, ![4096, 100, 128]⟩
abbrev So : Shape := ⟨2, ![4096, 100]⟩

/-- The score of batch row `b` against its sample `s`: the inner product of item row `b` with sample row `(b, s)`. -/
def scoreAt (X : Sx.Idx → EReal) (Y : Sy.Idx → EReal) (b : Fin 4096) (s : Fin 100) : EReal :=
  ∑ k : Fin 128, X (ix2 b k) * Y (ix3 b s k)

/-- All scores, as an array `[4096, 100]`. -/
def scores (X : Sx.Idx → EReal) (Y : Sy.Idx → EReal) : So.Idx → EReal :=
  fun j => scoreAt X Y ⟨(j 0).val, idx2_lt0 j⟩ ⟨(j 1).val, idx2_lt1 j⟩

theorem scores_ix2 (X : Sx.Idx → EReal) (Y : Sy.Idx → EReal) (b : Fin 4096) (s : Fin 100) :
    scores X Y (ix2 b s) = scoreAt X Y b s := rfl

end Cert.Score

end
-- ==== Proof.KernelArray.lean ====
/-
  From the grid's blocks to the whole array of scores.

  Grid point `t` (of 32) reads rows `128 t … 128 t + 127` of the item array and of the sample array and
  writes rows `128 t … 128 t + 127` of the result. What it writes is, entry by entry, the inner product
  of an item row with a sample row (the block's value at an entry), so each written block is the
  matching block of `scores` of the two arrays the region finds; the 32 blocks tile the result, so
  after the run the result array is `scores` of those two arrays.
-/
import proofs.«166263_j1735166787760_1_alg».proof.Proof.Gen.KernelIdeal.Value
import proofs.«166263_j1735166787760_1_alg».proof.Proof.BlockScore
import proofs.«166263_j1735166787760_1_alg».proof.Proof.ScoreSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Score

open Cert.KernelIdeal Cert.KernelIdeal.Gen Cert.Score

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The item rows and the sample rows as the region finds them. -/
abbrev itemArr (c : Dev nD) : Sx.Idx → EReal := V m c main_v80
abbrev sampArr (c : Dev nD) : Sy.Idx → EReal := V m c main_v87

/-- Every window's block index at point `t` is `t` on the row axis and `0` on the others. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem row_lt (t : Fin cfg0.N) (p : Fin 128) : t.val * 128 + p.val < 4096 := by
  have ht : t.val < 32 := lt_of_lt_of_eq t.isLt N_0
  have hp := p.isLt
  omega

/-- Entry `(p, k)` of the item block at point `t` is entry `(128 t + p, k)` of the item array. -/
theorem item_block (c : Dev nD) (t : Fin cfg0.N) (p k : Fin 128) :
    (iblk m c 0 t : Vec Ideal S128x128 .bf16) (ix2 p k) = itemArr m c (ix2 ⟨t.val * 128 + p.val, row_lt t p⟩ k) := by
  obtain ⟨e0, e1, -⟩ := idx_facts t
  unfold iblk
  rw [View.read_apply]
  show V m c main_v80 _ = V m c main_v80 _
  refine congrArg (V m c main_v80) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 128 + 1 * k.val = k.val; rw [e1]; omega

/-- Entry `(p, q, k)` of the sample block at point `t` is entry `(128 t + p, q, k)` of the sample array. -/
theorem samp_block (c : Dev nD) (t : Fin cfg0.N) (p : Fin 128) (q : Fin 100) (k : Fin 128) :
    (iblk m c 1 t : Vec Ideal S128x100x128 .bf16) (ix3 p q k) = sampArr m c (ix3 ⟨t.val * 128 + p.val, row_lt t p⟩ q k) := by
  obtain ⟨-, -, e0, e1, e2, -⟩ := idx_facts t
  unfold iblk
  rw [View.read_apply]
  show V m c main_v87 _ = V m c main_v87 _
  refine congrArg (V m c main_v87) (funext fun a => Fin.ext ?_)
  match a with
  | ⟨0, _⟩ => show win0_1.index t (0 : Fin 3) * 128 + 1 * p.val = t.val * 128 + p.val; rw [e0]; omega
  | ⟨1, _⟩ => show win0_1.index t (1 : Fin 3) * 100 + 1 * q.val = q.val; rw [e1]; omega
  | ⟨2, _⟩ => show win0_1.index t (2 : Fin 3) * 128 + 1 * k.val = k.val; rw [e2]; omega

/-- WHAT POINT `t` WRITES BACK is block `t` of the scores of the two arrays. -/
theorem flushed_eq (c : Dev nD) (t : Fin cfg0.N) :
    (dats m 0 c).flushed 2 t = ((cfg0.win 2).blk t).view.read (Elt Ideal) (scores (itemArr m c) (sampArr m c)) := by
  rw [Cert.KernelIdeal.Value.flushed2]
  unfold out0_2
  rw [View.canon_unit_zero hz2]
  simp only [View.ld_unit_zero (S := S128x128) hz2, View.ld_unit_zero (S := S128x100x128) hz3]
  obtain ⟨-, -, -, -, -, e0, e1⟩ := idx_facts t
  funext j
  obtain ⟨p, q, rfl⟩ : ∃ (p : Fin 128) (q : Fin 100), j = ix2 p q := ⟨j 0, j 1, eq_ix2 j⟩
  show k0_pay1 (F := Ideal) (iblk m c 0 t) (iblk m c 1 t) (ix2 p q)
    = scores (itemArr m c) (sampArr m c) (((cfg0.win 2).blk t).view.emb (ix2 p q))
  have hemb : ((cfg0.win 2).blk t).view.emb (ix2 p q) = (ix2 ⟨t.val * 128 + p.val, row_lt t p⟩ q : So.Idx) := by
    funext a; apply Fin.ext
    match a with
    | ⟨0, _⟩ => show win0_2.index t (0 : Fin 2) * 128 + 1 * p.val = t.val * 128 + p.val; rw [e0]; omega
    | ⟨1, _⟩ => show win0_2.index t (1 : Fin 2) * 100 + 1 * q.val = q.val; rw [e1]; omega
  rw [hemb, scores_ix2, pay_apply]
  unfold scoreAt
  refine Finset.sum_congr rfl fun k _ => ?_
  rw [item_block, samp_block]

/-- An index of the result is in point `t`'s block iff each coordinate is in the block's range on its axis. -/
theorem mem_blk (t : Fin cfg0.N) (i : S4096x100.Idx) :
    i ∈ ((cfg0.win 2).blk t).view.set ↔ ∀ a : Fin 2, win0_2.index t a * S128x100.size a ≤ (i a).val ∧ (i a).val < win0_2.index t a * S128x100.size a + S128x100.size a := by
  show i ∈ ((View.whole main_v88).slice (win0_2.rect t)).set ↔ _
  rw [View.set_slice_whole, Rect.mem_set_unit]
  exact Iff.rfl

/-- Row `r` of the result lies in the block of point `r / 128`: the 32 blocks cover the array. -/
theorem cover (i : S4096x100.Idx) : ∃ t : Fin cfg0.N, (cfg0.win 2).flush t = true ∧ i ∈ ((cfg0.win 2).blk t).view.set := by
  have hi0 : (i 0).val < 4096 := (i 0).isLt
  have hi1 : (i 1).val < 100 := (i 1).isLt
  let t : Fin cfg0.N := ⟨(i 0).val / 128, by rw [show cfg0.N = 32 from N_0]; omega⟩
  obtain ⟨-, -, -, -, -, e0, e1⟩ := idx_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    rw [e0]; show (i 0).val / 128 * 128 ≤ (i 0).val ∧ (i 0).val < (i 0).val / 128 * 128 + 128; omega
  | ⟨1, _⟩ =>
    show win0_2.index t (1 : Fin 2) * 100 ≤ (i 1).val ∧ (i 1).val < win0_2.index t (1 : Fin 2) * 100 + 100
    rw [e1]; omega

/-- THE RESULT ARRAY after the run: the scores of the item rows and the sample rows the region finds. -/
theorem final (c : Dev nD) : (dats m 0 c).arrAt 2 cfg0.N = scores (itemArr m c) (sampArr m c) :=
  (dats m 0 c).arrAt_eq_of_cover 2 (scores (itemArr m c) (sampArr m c)) (fun t _ => flushed_eq m c t) cover

/-- The run, read: the result array at the scores, the arguments unchanged. -/
theorem run : θ_run defs (onTc (τ := τ) (main (F := Ideal))) ⟨m, fun _ => 0, ρ⟩ fun r => ∀ c : Dev nD,
      r.2.mem ((c : Thread nD τ).loc main_v88) = scores (itemArr m c) (sampArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Score

end
-- ==== Proof.HostTail.lean ====
/-
  The two arrays the scoring region finds, as gathers of the embedding table.

  Before the region the program computes the graph embeddings `E : [100000, 128]`, narrows them to bf16,
  and gathers from the narrowed table one row per item index and one row per sample index; an index
  below zero is first moved up by the table's height (numpy's counting from the end). The region's
  item rows are `gather E' (item indices)` and its sample rows `gather E' (sample indices)`, where
  `E'` is the narrowed table. Only the last twenty host operations are opened here: the ninety before
  them, which compute `E`, stay folded.
-/
import proofs.«166263_j1735166787760_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- The item indices as the gather takes them: the column `[4096, 1]` flattened, an index below zero moved up by
    100000, and the unit axis put back. -/
def itemIdx (a2 : IVec S4096x1 32) : IVec S4096x1 32 :=
  broadcastInDim S4096x1 ![0] bcast_S4096_S4096x1_0
    (select (cmpi .slt (shapeCast S4096 a2 shapeCasts_S4096x1_S4096) (broadcastInDim S4096 ![] bcast_S_S4096 (constantI S_ 32 0#32)))
      (addi (shapeCast S4096 a2 shapeCasts_S4096x1_S4096) (broadcastInDim S4096 ![] bcast_S_S4096 (constantI S_ 32 100000#32)))
      (shapeCast S4096 a2 shapeCasts_S4096x1_S4096))

/-- The sample indices as the gather takes them: an index below zero moved up by 100000, a unit axis added. -/
def sampIdx (a3 : IVec S4096x100 32) : IVec S4096x100x1 32 :=
  broadcastInDim S4096x100x1 ![0, 1] bcast_S4096x100_S4096x100x1_0_1
    (select (cmpi .slt a3 (broadcastInDim S4096x100 ![] bcast_S_S4096x100 (constantI S_ 32 0#32)))
      (addi a3 (broadcastInDim S4096x100 ![] bcast_S_S4096x100 (constantI S_ 32 100000#32)))
      a3)

variable (m : (ℓ : Loc nD τ sig) → Buf (Elt F) ℓ)

/-- The contents the region finds are the last twenty host operations run from what the first ninety leave. -/
theorem V_split (c : Dev nD) (b : Ref sig .tc) :
    V m c b = after ((hostOps0 (F := F)).drop 90) (after ((hostOps0 (F := F)).take 90) (fun b => m (c, b))) b :=
  (congrArg (fun l => after l (fun b => m (c, b)) (b : DevRef τ sig)) (List.take_append_drop 90 (hostOps0 (F := F))).symm).trans
    (congrFun (StableHlo.after_append _ _ _) _)

/-- The last twenty operations leave the embeddings, the item indices' argument and the sample indices' argument alone. -/
theorem tail_v71 (W : Valuation τ sig (Elt F)) :
    after ((hostOps0 (F := F)).drop 90) W main_v71 = W main_v71 := by
  simp only [hostOps0, List.drop_succ_cons, List.drop_zero]
  after_results

theorem tail_arg2 (W : Valuation τ sig (Elt F)) :
    after ((hostOps0 (F := F)).drop 90) W main_arg2 = W main_arg2 := by
  simp only [hostOps0, List.drop_succ_cons, List.drop_zero]
  after_results

theorem tail_arg3 (W : Valuation τ sig (Elt F)) :
    after ((hostOps0 (F := F)).drop 90) W main_arg3 = W main_arg3 := by
  simp only [hostOps0, List.drop_succ_cons, List.drop_zero]
  after_results

set_option maxHeartbeats 4000000 in
/-- What they leave in the item rows' buffer and in the sample rows' buffer. -/
theorem tail_v80 (W : Valuation τ sig (Elt F)) :
    after ((hostOps0 (F := F)).drop 90) W main_v80
      = Host.gather gather_S100000x128_S4096x1_S4096x128_1_0_n_n_0_1_1128 (truncf .bf16 (W main_v71) bitsLt_bf16_f32) (itemIdx (W main_arg2)) := by
  simp only [hostOps0, List.drop_succ_cons, List.drop_zero]
  after_results
  rfl

set_option maxHeartbeats 4000000 in
theorem tail_v87 (W : Valuation τ sig (Elt F)) :
    after ((hostOps0 (F := F)).drop 90) W main_v87
      = Host.gather gather_S100000x128_S4096x100x1_S4096x100x128_2_0_n_n_0_2_1128 (truncf .bf16 (W main_v71) bitsLt_bf16_f32) (sampIdx (W main_arg3)) := by
  simp only [hostOps0, List.drop_succ_cons, List.drop_zero]
  after_results
  rfl

/-- THE ITEM ROWS the region finds: one row of the narrowed embeddings per item index. -/
theorem V_items (c : Dev nD) :
    V m c main_v80 = Host.gather gather_S100000x128_S4096x1_S4096x128_1_0_n_n_0_1_1128
      (truncf .bf16 (V m c main_v71) bitsLt_bf16_f32) (itemIdx (m ((c : Thread nD τ).loc main_arg2))) := by
  have h71 := (V_split m c main_v71).trans (tail_v71 _)
  have h2 := ((V_split m c main_arg2).trans (tail_arg2 _)).symm.trans (V_main_arg2 m c)
  rw [V_split m c main_v80, tail_v80, ← h71, h2]

/-- THE SAMPLE ROWS the region finds: one row of the narrowed embeddings per sample index. -/
theorem V_samples (c : Dev nD) :
    V m c main_v87 = Host.gather gather_S100000x128_S4096x100x1_S4096x100x128_2_0_n_n_0_2_1128
      (truncf .bf16 (V m c main_v71) bitsLt_bf16_f32) (sampIdx (m ((c : Thread nD τ).loc main_arg3))) := by
  have h71 := (V_split m c main_v71).trans (tail_v71 _)
  have h3 := ((V_split m c main_arg3).trans (tail_arg3 _)).symm.trans (V_main_arg3 m c)
  rw [V_split m c main_v87, tail_v87, ← h71, h3]

end Cert.KernelIdeal.Host

end
-- ==== Proof.IndexWrap.lean ====
/-
  Counting an index from the end.

  numpy-style indexing moves an index below zero up by the table's height before it is used: with a
  table of 100000 rows, index `x` is read as `x + 100000` when `x < 0` (signed) and as `x` otherwise.
-/
import Idealize.ShloMosaic.PureOps

noncomputable section

open Idealize.ShloMosaic

namespace Cert.Score

/-- The row an index names in a table of 100000 rows, before the gather clamps it into range. -/
def wrapRow (x : BitVec 32) : BitVec 32 :=
  Scalar.select (IntOp.cmpi .slt x 0#32) (IntOp.addi x 100000#32) x

/-- The table row an item index ends up naming: counted from the end when negative, read as a signed integer and
    clamped into `[0, 99999]` as the gather clamps every start index. -/
def rowOf (x : BitVec 32) : Fin 100000 :=
  ⟨min (wrapRow x).toInt.toNat 99999, by omega⟩

theorem rowOf_val (x : BitVec 32) : (rowOf x).val = min (wrapRow x).toInt.toNat 99999 := rfl

end Cert.Score

end
-- ==== Proof.KernelItems.lean ====
/-
  The kernel's item rows, read at an entry.

  The program gathers from the narrowed embedding table with start indices `[4096, 1]` (the item column
  flattened, each index counted from the end when negative, the unit axis put back) and slices of one
  whole row: entry `(b, k)` of the result is the table's entry `(r, k)`, where `r` is item index `b` read
  as a signed integer and clamped into `[0, 99999]`. At the ideal values narrowing to bf16 is the
  identity, so this is the embedding table's own entry.
-/
import proofs.«166263_j1735166787760_1_alg».proof.Proof.HostTail
import proofs.«166263_j1735166787760_1_alg».proof.Proof.IndexWrap
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Score

open Cert.KernelIdeal Cert.KernelIdeal.Gen Cert.Score

/-- The gather's dimension numbers: rows of the table (axis 0 collapsed, indexed), whole rows kept (axis 1 an offset axis). -/
abbrev gItem := gather_S100000x128_S4096x1_S4096x128_1_0_n_n_0_1_1128

/-- On the row axis the gather reads the start index at `(b, 0)`, signed, clamped into the table. -/
theorem gItem_axis0 (idx : IVec S4096x1 32) (b : Fin 4096) (k : Fin 128) :
    (gItem.operandIdx (ix2 b k) idx (0 : Fin 2)).val = min (idx (ix2 b (0 : Fin 1))).toInt.toNat 99999 := by
  show gItem.start (ix2 b k) idx (0 : Fin 2) + gItem.batchCoord (ix2 b k) (0 : Fin 2) + gItem.offCoord (ix2 b k) (0 : Fin 2) = _
  rw [GatherDims.batchCoord_eq_zero _ _ _ (show (0 : Fin 2) ∉ gItem.operandBatchingDims from List.not_mem_nil),
    GatherDims.offCoord_eq_zero _ _ _ (fun h => ((GatherDims.mem_sKept _ _).mp h).1
      (show (0 : Fin 2) ∈ gItem.collapsedSliceDims from List.mem_singleton.mpr rfl))]
  simp only [Nat.add_zero]
  unfold GatherDims.start
  rw [dif_pos (show (0 : Fin 2) ∈ gItem.startIndexMap from List.mem_singleton.mpr rfl)]
  have hsi : gItem.siIdx (ix2 b k) ⟨List.idxOf (0 : Fin 2) gItem.startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- On the entry axis the gather reads the result's own last coordinate. -/
theorem gItem_axis1 (idx : IVec S4096x1 32) (b : Fin 4096) (k : Fin 128) :
    (gItem.operandIdx (ix2 b k) idx (1 : Fin 2)).val = k.val := by
  show gItem.start (ix2 b k) idx (1 : Fin 2) + gItem.batchCoord (ix2 b k) (1 : Fin 2) + gItem.offCoord (ix2 b k) (1 : Fin 2) = _
  rw [GatherDims.batchCoord_eq_zero _ _ _ (show (1 : Fin 2) ∉ gItem.operandBatchingDims from List.not_mem_nil)]
  have hs : gItem.start (ix2 b k) idx (1 : Fin 2) = 0 := by
    unfold GatherDims.start
    rw [dif_neg (show ¬ (1 : Fin 2) ∈ gItem.startIndexMap by decide)]
  have ho : gItem.offCoord (ix2 b k) (1 : Fin 2) = k.val := by
    unfold GatherDims.offCoord
    rw [dif_pos (show (1 : Fin 2) ∈ gItem.sKept by decide)]
    rfl
  rw [hs, ho]; omega

/-- THE GATHER AT AN ENTRY: row `b` of the result is the table's row at the clamped start index. -/
theorem gItem_row {α : Type} (x : S100000x128.Idx → α) (idx : IVec S4096x1 32) (b : Fin 4096) (k : Fin 128) (r : Fin 100000)
    (hr : r.val = min (idx (ix2 b (0 : Fin 1))).toInt.toNat 99999) :
    Host.gather gItem x idx (ix2 b k) = x (ix2 r k) := by
  unfold Host.gather
  refine congrArg x (funext fun a => Fin.ext ?_)
  match a with
  | ⟨0, _⟩ => exact (gItem_axis0 idx b k).trans hr.symm
  | ⟨1, _⟩ => exact gItem_axis1 idx b k

/-- The start index the program's gather is given for batch row `b`: item index `b`, counted from the end when negative. -/
theorem itemIdx_apply (a2 : IVec S4096x1 32) (b : Fin 4096) :
    Host.itemIdx a2 (ix2 b (0 : Fin 1)) = wrapRow (a2 (ix2 b (0 : Fin 1))) := by
  have hr : shapeCast S4096 a2 shapeCasts_S4096x1_S4096 (ix1 b) = a2 (ix2 b (0 : Fin 1)) :=
    shapeCast_apply a2 shapeCasts_S4096x1_S4096 (ix1 b) (ix2 b (0 : Fin 1))
      (by rw [Shape.rowMajor_val_two, Shape.rowMajor_val_one]; show b.val * 1 + 0 = b.val; omega)
  have hz : broadcastInDim S4096 ![] bcast_S_S4096 (constantI S_ 32 0#32) (ix1 b) = 0#32 :=
    broadcastInDim_apply _ bcast_S_S4096 (constantI S_ 32 0#32) (ix1 b) ix0 (fun a => a.elim0)
  have hh : broadcastInDim S4096 ![] bcast_S_S4096 (constantI S_ 32 100000#32) (ix1 b) = 100000#32 :=
    broadcastInDim_apply _ bcast_S_S4096 (constantI S_ 32 100000#32) (ix1 b) ix0 (fun a => a.elim0)
  unfold Host.itemIdx
  refine (broadcastInDim_apply _ bcast_S4096_S4096x1_0 _ (ix2 b (0 : Fin 1)) (ix1 b) (fun a => ?_)).trans ?_
  · match a with
    | ⟨0, _⟩ => show b.val = if (4096 : Nat) = 1 then 0 else b.val; rw [if_neg (by decide)]
  · show Scalar.select
        (IntOp.cmpi .slt (shapeCast S4096 a2 shapeCasts_S4096x1_S4096 (ix1 b))
          (broadcastInDim S4096 ![] bcast_S_S4096 (constantI S_ 32 0#32) (ix1 b)))
        (IntOp.addi (shapeCast S4096 a2 shapeCasts_S4096x1_S4096 (ix1 b))
          (broadcastInDim S4096 ![] bcast_S_S4096 (constantI S_ 32 100000#32) (ix1 b)))
        (shapeCast S4096 a2 shapeCasts_S4096x1_S4096 (ix1 b)) = _
    rw [hr, hz, hh]
    rfl

variable (m : (ℓ : Loc nD τ sig) → Buf (Elt Ideal) ℓ)

/-- THE KERNEL'S ITEM ROWS at an entry: the embedding table's row at item index `b` (counted from the end when
    negative, clamped into the table), entry `k`. -/
theorem itemRow_apply (c : Dev nD) (b : Fin 4096) (k : Fin 128) :
    (V m c main_v80 : S4096x128.Idx → EReal) (ix2 b k)
      = (V m c main_v71 : S100000x128.Idx → EReal)
          (ix2 (rowOf ((m ((c : Thread nD τ).loc main_arg2) : IVec S4096x1 32) (ix2 b (0 : Fin 1)))) k) := by
  rw [Host.V_items]
  exact gItem_row _ _ b k _ (by rw [itemIdx_apply, rowOf_val])

end Cert.KernelIdeal.Score

end
-- ==== Proof.RefScores.lean ====
/-
  The reference's result as the scores of two gathered arrays.

  The reference gathers one item row per batch row (as an array `[4096, 1, 128]`) and a hundred sample
  rows per batch row (`[4096, 100, 128]`), contracts the last axis of the two batch row by batch row
  (a `dot_general` into `[4096, 1, 100]`) and drops the unit axis. Entry `(b, s)` of the result is entry
  `(b, 0, s)` of the contraction, the sum over `k` of item entry `(b, 0, k)` times sample entry `(b, s, k)`:
  the score of the item rows (unit axis dropped) against the sample rows.
-/
import proofs.«166263_j1735166787760_1_alg».proof.Proof.Gen.ReferenceIdeal.Read
import proofs.«166263_j1735166787760_1_alg».proof.Proof.ScoreSpec

noncomputable section

open Idealize.ShloMosaic Idealize.ShloMosaic.ValueIdx

namespace Cert.ReferenceIdeal.Score

open Cert.ReferenceIdeal Cert.ReferenceIdeal.Read Cert.Score

/-- The gathered item rows with their unit axis dropped: entry `(b, k)` is entry `(b, 0, k)`. -/
def itemRows (x0 : (⟨S100000x128, .f32⟩ : BufTy).Contents (Elt Ideal)) (x1 : (⟨S2x600000, .i32⟩ : BufTy).Contents (Elt Ideal))
    (x2 : (⟨S4096x1, .i32⟩ : BufTy).Contents (Elt Ideal)) : Sx.Idx → EReal :=
  fun j => val_main_v78 (F := Ideal) x0 x1 x2 (ix3 (⟨(j 0).val, idx2_lt0 j⟩ : Fin 4096) (0 : Fin 1) (⟨(j 1).val, idx2_lt1 j⟩ : Fin 128))

theorem itemRows_ix2 (x0 : (⟨S100000x128, .f32⟩ : BufTy).Contents (Elt Ideal)) (x1 : (⟨S2x600000, .i32⟩ : BufTy).Contents (Elt Ideal))
    (x2 : (⟨S4096x1, .i32⟩ : BufTy).Contents (Elt Ideal)) (b : Fin 4096) (k : Fin 128) :
    itemRows x0 x1 x2 (ix2 b k) = val_main_v78 (F := Ideal) x0 x1 x2 (ix3 b (0 : Fin 1) k) := rfl

/-- THE REFERENCE'S RESULT is the scores of its gathered item rows against its gathered sample rows. -/
theorem result_eq (x0 : (⟨S100000x128, .f32⟩ : BufTy).Contents (Elt Ideal)) (x1 : (⟨S2x600000, .i32⟩ : BufTy).Contents (Elt Ideal))
    (x2 : (⟨S4096x1, .i32⟩ : BufTy).Contents (Elt Ideal)) (x3 : (⟨S4096x100, .i32⟩ : BufTy).Contents (Elt Ideal)) :
    val_main_v87 (F := Ideal) x0 x1 x2 x3 = scores (itemRows x0 x1 x2) (val_main_v85 (F := Ideal) x0 x1 x3) := by
  funext i
  obtain ⟨b, s, rfl⟩ : ∃ (b : Fin 4096) (s : Fin 100), i = ix2 b s := ⟨i 0, i 1, eq_ix2 i⟩
  rw [val_main_v87_apply, val_main_v86_apply, scores_ix2]
  unfold scoreAt
  have hb := b.isLt
  have hs := s.isLt
  refine Finset.sum_congr rfl fun k _ => ?_
  have el : lidx_main_v86 (idx_main_v87 (ix2 b s)) k = ix3 b (0 : Fin 1) k := by
    funext a; apply Fin.ext
    match a with
    | ⟨0, _⟩ => show (b.val * 100 + s.val) / 100 = b.val; omega
    | ⟨1, _⟩ => rfl
    | ⟨2, _⟩ => rfl
  have er : ridx_main_v86 (idx_main_v87 (ix2 b s)) k = ix3 b s k := by
    funext a; apply Fin.ext
    match a with
    | ⟨0, _⟩ => show (b.val * 100 + s.val) / 100 = b.val; omega
    | ⟨1, _⟩ => show (b.val * 100 + s.val) % 100 = s.val; omega
    | ⟨2, _⟩ => rfl
  rw [el, er, itemRows_ix2]

end Cert.ReferenceIdeal.Score

end
-- ==== Proof.RefItems.lean ====
/-
  The reference's gathered item rows, read at an entry.

  The reference gathers from the embedding table `E : [100000, 128]` with start indices `[4096, 1, 1]`
  (the item column, each index counted from the end when negative, a unit axis added) and slices of
  one whole row: entry `(b, 0, k)` of the result is `E (r, k)`, where `r` is item index `b` read as a
  signed integer and clamped into `[0, 99999]`.
-/
import proofs.«166263_j1735166787760_1_alg».proof.Proof.Gen.ReferenceIdeal.Read
import proofs.«166263_j1735166787760_1_alg».proof.Proof.IndexWrap
import Idealize.ShloMosaic.Lib.ValueIdx

noncomputable section

open Idealize.ShloMosaic Idealize.ShloMosaic.ValueIdx

namespace Cert.ReferenceIdeal.Score

open Cert.ReferenceIdeal Cert.ReferenceIdeal.Gen Cert.ReferenceIdeal.Read Cert.Score

/-- The gather's dimension numbers: rows of the table (axis 0 collapsed, indexed), whole rows kept (axis 1 an offset axis). -/
abbrev gItem := gather_S100000x128_S4096x1x1_S4096x1x128_2_0_n_n_0_2_1128

/-- On the row axis the gather reads the start index at `(b, 0, 0)`, signed, clamped into the table. -/
theorem gItem_axis0 (idx : IVec S4096x1x1 32) (b : Fin 4096) (k : Fin 128) :
    (gItem.operandIdx (ix3 b (0 : Fin 1) k) idx (0 : Fin 2)).val
      = min (idx (ix3 b (0 : Fin 1) (0 : Fin 1))).toInt.toNat 99999 := by
  show gItem.start (ix3 b (0 : Fin 1) k) idx (0 : Fin 2) + gItem.batchCoord (ix3 b (0 : Fin 1) k) (0 : Fin 2)
    + gItem.offCoord (ix3 b (0 : Fin 1) k) (0 : Fin 2) = _
  rw [GatherDims.batchCoord_eq_zero _ _ _ (show (0 : Fin 2) ∉ gItem.operandBatchingDims from List.not_mem_nil),
    GatherDims.offCoord_eq_zero _ _ _ (fun h => ((GatherDims.mem_sKept _ _).mp h).1
      (show (0 : Fin 2) ∈ gItem.collapsedSliceDims from List.mem_singleton.mpr rfl))]
  simp only [Nat.add_zero]
  unfold GatherDims.start
  rw [dif_pos (show (0 : Fin 2) ∈ gItem.startIndexMap from List.mem_singleton.mpr rfl)]
  have hsi : gItem.siIdx (ix3 b (0 : Fin 1) k) ⟨List.idxOf (0 : Fin 2) gItem.startIndexMap,
      List.idxOf_lt_length_iff.2 (List.mem_singleton.mpr rfl)⟩ = ix3 b (0 : Fin 1) (0 : Fin 1) := by
    funext c; refine Fin.ext ?_
    match c with
    | ⟨0, _⟩ => rfl
    | ⟨1, _⟩ => rfl
    | ⟨2, _⟩ => rfl
  rw [hsi]
  rfl

/-- On the entry axis the gather reads the result's own last coordinate. -/
theorem gItem_axis1 (idx : IVec S4096x1x1 32) (b : Fin 4096) (k : Fin 128) :
    (gItem.operandIdx (ix3 b (0 : Fin 1) k) idx (1 : Fin 2)).val = k.val := by
  show gItem.start (ix3 b (0 : Fin 1) k) idx (1 : Fin 2) + gItem.batchCoord (ix3 b (0 : Fin 1) k) (1 : Fin 2)
    + gItem.offCoord (ix3 b (0 : Fin 1) k) (1 : Fin 2) = _
  rw [GatherDims.batchCoord_eq_zero _ _ _ (show (1 : Fin 2) ∉ gItem.operandBatchingDims from List.not_mem_nil)]
  have hs : gItem.start (ix3 b (0 : Fin 1) k) idx (1 : Fin 2) = 0 := by
    unfold GatherDims.start
    rw [dif_neg (show ¬ (1 : Fin 2) ∈ gItem.startIndexMap by decide)]
  have ho : gItem.offCoord (ix3 b (0 : Fin 1) k) (1 : Fin 2) = k.val := by
    unfold GatherDims.offCoord
    rw [dif_pos (show (1 : Fin 2) ∈ gItem.sKept by decide)]
    rfl
  rw [hs, ho]; omega

/-- THE GATHER AT AN ENTRY: row `(b, 0)` of the result is the table's row at the clamped start index. -/
theorem gItem_row {α : Type} (x : S100000x128.Idx → α) (idx : IVec S4096x1x1 32) (b : Fin 4096) (k : Fin 128) (r : Fin 100000)
    (hr : r.val = min (idx (ix3 b (0 : Fin 1) (0 : Fin 1))).toInt.toNat 99999) :
    Host.gather gItem x idx (ix3 b (0 : Fin 1) k) = x (ix2 r k) := by
  unfold Host.gather
  refine congrArg x (funext fun a => Fin.ext ?_)
  match a with
  | ⟨0, _⟩ => exact (gItem_axis0 idx b k).trans hr.symm
  | ⟨1, _⟩ => exact gItem_axis1 idx b k

/-- The start index the reference's gather is given for batch row `b`: item index `b`, counted from the end when negative. -/
theorem startIdx_apply (x2 : (⟨S4096x1, .i32⟩ : BufTy).Contents (Elt Ideal)) (b : Fin 4096) :
    val_main_v77 (F := Ideal) x2 (ix3 b (0 : Fin 1) (0 : Fin 1)) = wrapRow (x2 (ix2 b (0 : Fin 1))) := by
  have hi : idx_main_v77 (ix3 b (0 : Fin 1) (0 : Fin 1)) = ix2 b (0 : Fin 1) := by
    funext a; apply Fin.ext
    match a with
    | ⟨0, _⟩ => rfl
    | ⟨1, _⟩ => rfl
  rw [val_main_v77_apply, hi, val_main_v76_apply, val_main_v73_apply, val_main_v75_apply, val_main_v72_apply,
    val_main_v74_apply, val_main_c_16_apply, val_main_c_17_apply]
  rfl

/-- THE REFERENCE'S ITEM ROWS at an entry: the embedding table's row at item index `b` (counted from the end when
    negative, clamped into the table), entry `k`. -/
theorem itemRow_apply (x0 : (⟨S100000x128, .f32⟩ : BufTy).Contents (Elt Ideal)) (x1 : (⟨S2x600000, .i32⟩ : BufTy).Contents (Elt Ideal))
    (x2 : (⟨S4096x1, .i32⟩ : BufTy).Contents (Elt Ideal)) (b : Fin 4096) (k : Fin 128) :
    val_main_v78 (F := Ideal) x0 x1 x2 (ix3 b (0 : Fin 1) k)
      = val_main_v71 (F := Ideal) x0 x1 (ix2 (rowOf (x2 (ix2 b (0 : Fin 1)))) k) := by
  unfold val_main_v78
  exact gItem_row _ _ b k _ (by rw [startIdx_apply, rowOf_val])

end Cert.ReferenceIdeal.Score

end
-- ==== Proof.Embeddings.lean ====
/-
  The two programs compute the same embedding table.

  Up to the embeddings `E = (x₀ + x₁ + x₂) / 3` (two rounds of normalised neighbour averaging over the
  edge list with self-loops appended) the kernel's program and the reference run the same ninety host
  operations on the same two arguments, so the table the kernel's region gathers from is, as a function
  of the embedding argument and the edge list, the reference's. The chain is never opened: both sides
  are the same composition of the same operations, compared as terms.
-/
import proofs.«166263_j1735166787760_1_alg».proof.Proof.HostTail
import proofs.«166263_j1735166787760_1_alg».proof.Proof.Gen.ReferenceIdeal.Read

noncomputable section

open Idealize.ShloMosaic Idealize.ShloMosaic.TcCoe Idealize.SL.Sem Idealize.ShloMosaic.StableHlo

namespace Cert.Score

variable {F : FTy → Type} [FloatOps F]

set_option maxHeartbeats 40000000 in
set_option maxRecDepth 65536 in
/-- THE EMBEDDINGS AGREE: what the kernel's program leaves in its embeddings buffer is the reference's embeddings stage
    of the same two arguments (at any float family: no arithmetic law is used). -/
theorem emb_eq (m : (ℓ : Loc Cert.KernelIdeal.nD Cert.KernelIdeal.τ Cert.KernelIdeal.sig) → Buf (Elt F) ℓ) (c : Dev Cert.KernelIdeal.nD) :
    Cert.KernelIdeal.Gen.V m c Cert.KernelIdeal.main_v71
      = Cert.ReferenceIdeal.Read.val_main_v71 (F := F)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [Cert.KernelIdeal.Host.V_split m c Cert.KernelIdeal.main_v71, Cert.KernelIdeal.Host.tail_v71]
  simp only [Cert.KernelIdeal.Gen.hostOps0, List.take_succ_cons, List.take_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.Score

end
-- ==== Proof.Bridge.lean ====
/-
  The kernel's scores are the reference's scores.

  Both programs end at `scores X Y`: the kernel with `X`, `Y` the item rows and sample rows its region
  finds, the reference with its gathered item rows (unit axis dropped) and sample rows. The two `X` are
  the same array — entry `(b, k)` is the embedding table's row at item index `b` (counted from the end
  when negative, clamped into the table), entry `k`, on both sides — and the two `Y` are the same gather
  of the same table at the same indices, narrowing to bf16 being the identity on extended reals. The
  embedding table itself is the same function of the arguments on both sides.
-/
import proofs.«166263_j1735166787760_1_alg».proof.Proof.KernelArray
import proofs.«166263_j1735166787760_1_alg».proof.Proof.KernelItems
import proofs.«166263_j1735166787760_1_alg».proof.Proof.RefScores
import proofs.«166263_j1735166787760_1_alg».proof.Proof.RefItems
import proofs.«166263_j1735166787760_1_alg».proof.Proof.Embeddings

noncomputable section

open Idealize.ShloMosaic Idealize.ShloMosaic.TcCoe Idealize.SL.Sem Idealize.ShloMosaic.ValueIdx

namespace Cert.Score

open Cert.KernelIdeal (nD τ sig main_arg0 main_arg1 main_arg2 main_arg3)

variable (m : (ℓ : Loc nD τ sig) → Buf (Elt Ideal) ℓ)

/-- The item rows agree: both are the embedding table's rows at the item indices. -/
theorem items_agree (c : Dev nD) :
    Cert.ReferenceIdeal.Score.itemRows (m ((c : Thread nD τ).loc main_arg0)) (m ((c : Thread nD τ).loc main_arg1))
        (m ((c : Thread nD τ).loc main_arg2))
      = Cert.KernelIdeal.Score.itemArr m c := by
  funext j
  obtain ⟨b, k, rfl⟩ : ∃ (b : Fin 4096) (k : Fin 128), j = ix2 b k := ⟨j 0, j 1, eq_ix2 j⟩
  rw [Cert.ReferenceIdeal.Score.itemRows_ix2, Cert.ReferenceIdeal.Score.itemRow_apply]
  show _ = (Cert.KernelIdeal.Gen.V m c Cert.KernelIdeal.main_v80 : Cert.KernelIdeal.S4096x128.Idx → EReal) (ix2 b k)
  rw [Cert.KernelIdeal.Score.itemRow_apply, emb_eq]

/-- The sample rows agree: the same gather of the same table at the same indices. -/
theorem samples_agree (c : Dev nD) :
    Cert.ReferenceIdeal.Read.val_main_v85 (F := Ideal) (m ((c : Thread nD τ).loc main_arg0)) (m ((c : Thread nD τ).loc main_arg1))
        (m ((c : Thread nD τ).loc main_arg3))
      = Cert.KernelIdeal.Score.sampArr m c := by
  show _ = Cert.KernelIdeal.Gen.V m c Cert.KernelIdeal.main_v87
  rw [Cert.KernelIdeal.Host.V_samples, emb_eq]
  unfold Cert.ReferenceIdeal.Read.val_main_v85
  generalize Cert.ReferenceIdeal.Read.val_main_v71 (F := Ideal) (m ((c : Thread nD τ).loc main_arg0)) (m ((c : Thread nD τ).loc main_arg1)) = E
  rfl

end Cert.Score

end
-- ==== Proof.lean ====
/-
  The certificate of the batched item-against-sample scoring kernel.

  The kernel's program computes graph embeddings `E` on the host, narrows them to bf16, gathers one
  row per item index and a hundred rows per batch row of sample indices, and a 32-point pipelined
  region multiplies each item row with its sample rows entry by entry and sums the last axis. The
  reference computes the same embeddings, gathers in f32 and contracts the last axis with a batched
  `dot_general`. Read at the ideal values both end at `∑ k, E (r b, k) * E (r' b s, k)` for the same row
  numbers `r b`, `r' b s`: the two sums have the same terms in the same order, so no law of the extended
  reals beyond that identity is used and the finiteness precondition is never opened.

  The frames of the two kernel programs and the kernel's value leg (block by block) are the generated
  modules'; the reference's frame and value are its generated run and its read-at-an-index lemmas.
-/
import proofs.«166263_j1735166787760_1_alg».proof.Defs
import proofs.«166263_j1735166787760_1_alg».proof.Proof.Gen.Kernel
import proofs.«166263_j1735166787760_1_alg».proof.Proof.Gen.Kernel.Skeleton
import proofs.«166263_j1735166787760_1_alg».proof.Proof.Gen.Kernel.Launch
import proofs.«166263_j1735166787760_1_alg».proof.Proof.Gen.Kernel.Points
import proofs.«166263_j1735166787760_1_alg».proof.Proof.Gen.Kernel.Frame
import proofs.«166263_j1735166787760_1_alg».proof.Proof.Gen.KernelIdeal
import proofs.«166263_j1735166787760_1_alg».proof.Proof.Gen.KernelIdeal.Skeleton
import proofs.«166263_j1735166787760_1_alg».proof.Proof.Gen.KernelIdeal.Launch
import proofs.«166263_j1735166787760_1_alg».proof.Proof.Gen.KernelIdeal.Points
import proofs.«166263_j1735166787760_1_alg».proof.Proof.Gen.KernelIdeal.Frame
import proofs.«166263_j1735166787760_1_alg».proof.Proof.Gen.ReferenceIdeal
import proofs.«166263_j1735166787760_1_alg».proof.Proof.Gen.Pre_finite_inputs
import proofs.«166263_j1735166787760_1_alg».proof.Proof.Gen.KernelIdeal.Value
import proofs.«166263_j1735166787760_1_alg».proof.Proof.Gen.ReferenceIdeal.Run
import proofs.«166263_j1735166787760_1_alg».proof.Proof.Gen.ReferenceIdeal.Read
import proofs.«166263_j1735166787760_1_alg».proof.Proof.Bridge
import Idealize.ShloMosaic.Adequacy
import Idealize.ShloMosaic.Init

noncomputable section

open Idealize.ShloMosaic Idealize.ShloMosaic.TcCoe Idealize.SL.Sem

namespace Cert.Proof.ScoreClaims

open Cert.Score

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the scores of the item rows and sample rows its region finds,
    the reference's at the scores of its gathered rows, and the rows agree. -/
theorem algebraic : Cert.algebraic_KernelIdeal_ReferenceIdeal := by
  intro m ρ m' ρ' _ hagree
  refine ⟨fun c => scores (Cert.KernelIdeal.Score.itemArr m c) (Cert.KernelIdeal.Score.sampArr m c),
    Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, (hagree c).1, (hagree c).2.1, (hagree c).2.2.1, (hagree c).2.2.2,
    Cert.ReferenceIdeal.Score.result_eq, items_agree m c, samples_agree m c]

end Cert.Proof.ScoreClaims

namespace Cert.Proof

theorem claim : Cert.Claim := ⟨Cert.Kernel.Gen.facts, Cert.KernelIdeal.Gen.facts, Cert.ReferenceIdeal.Gen.facts, Cert.Pre_finite_inputs.Gen.facts,
  ScoreClaims.frame_k, ScoreClaims.frame_ki, ScoreClaims.frame_ri, trivial, ScoreClaims.algebraic⟩

end Cert.Proof

end
